-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 4294917296#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S1x256 : Shape := ⟨2, ![1, 256]⟩
abbrev S1x128 : Shape := ⟨2, ![1, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩

abbrev nBuf : Space → Nat
  | .hbm => 102
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S128x256, .f32⟩
  | .hbm, ⟨13, _⟩ => ⟨S128x256, .bf16⟩
  | .hbm, ⟨14, _⟩ => ⟨S128x256, .f32⟩
  | .hbm, ⟨15, _⟩ => ⟨S128x256, .bf16⟩
  | .hbm, ⟨16, _⟩ => ⟨S1x256, .f32⟩
  | .hbm, ⟨17, _⟩ => ⟨S256x128, .f32⟩
  | .hbm, ⟨18, _⟩ => ⟨S256x128, .bf16⟩
  | .hbm, ⟨19, _⟩ => ⟨S256x128, .f32⟩
  | .hbm, ⟨20, _⟩ => ⟨S256x128, .bf16⟩
  | .hbm, ⟨21, _⟩ => ⟨S1x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S1, .i32⟩
  | .hbm, ⟨31, _⟩ => ⟨S_, .i32⟩
  | .hbm, ⟨32, _⟩ => ⟨S800000x1, .i32⟩
  | .hbm, ⟨33, _⟩ => ⟨S800000x1, .i1⟩
  | .hbm, ⟨34, _⟩ => ⟨S1x1, .i32⟩
  | .hbm, ⟨35, _⟩ => ⟨S800000x1, .i32⟩
  | .hbm, ⟨36, _⟩ => ⟨S800000x1, .i1⟩
  | .hbm, ⟨37, _⟩ => ⟨S800000x1, .i1⟩
  | .hbm, ⟨38, _⟩ => ⟨S_, .i1⟩
  | .hbm, ⟨39, _⟩ => ⟨S800000, .i1⟩
  | .hbm, ⟨40, _⟩ => ⟨S800000x128, .f32⟩
  | .hbm, ⟨41, _⟩ => ⟨S800000x128, .i1⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S1, .i32⟩
  | .hbm, ⟨71, _⟩ => ⟨S_, .i32⟩
  | .hbm, ⟨72, _⟩ => ⟨S800000x1, .i32⟩
  | .hbm, ⟨73, _⟩ => ⟨S800000x1, .i1⟩
  | .hbm, ⟨74, _⟩ => ⟨S1x1, .i32⟩
  | .hbm, ⟨75, _⟩ => ⟨S800000x1, .i32⟩
  | .hbm, ⟨76, _⟩ => ⟨S800000x1, .i1⟩
  | .hbm, ⟨77, _⟩ => ⟨S800000x1, .i1⟩
  | .hbm, ⟨78, _⟩ => ⟨S_, .i1⟩
  | .hbm, ⟨79, _⟩ => ⟨S800000, .i1⟩
  | .hbm, ⟨80, _⟩ => ⟨S800000x256, .f32⟩
  | .hbm, ⟨81, _⟩ => ⟨S800000x256, .i1⟩
  | .hbm, ⟨82, _⟩ => ⟨S_, .f32⟩
  | .hbm, ⟨83, _⟩ => ⟨S800000x256, .f32⟩
  | .hbm, ⟨84, _⟩ => ⟨S800000x256, .f32⟩
  | .hbm, ⟨85, _⟩ => ⟨S_, .f32⟩
  | .hbm, ⟨86, _⟩ => ⟨S50000x256, .f32⟩
  | .hbm, ⟨87, _⟩ => ⟨S800000x1, .i32⟩
  | .hbm, ⟨88, _⟩ => ⟨S50000x256, .f32⟩
  | .hbm, ⟨89, _⟩ => ⟨S_, .f32⟩
  | .hbm, ⟨90, _⟩ => ⟨S800000, .f32⟩
  | .hbm, ⟨91, _⟩ => ⟨S_, .f32⟩
  | .hbm, ⟨92, _⟩ => ⟨S50000, .f32⟩
  | .hbm, ⟨93, _⟩ => ⟨S800000x1, .i32⟩
  | .hbm, ⟨94, _⟩ => ⟨S50000, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x256, .f32⟩
  | .hbm, ⟨100, _⟩ => ⟨S50000x256, .f32⟩
  | .hbm, ⟨101, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .bf16⟩
  | .local _ .vmem, ⟨14, _⟩ => ⟨S1x128, .f32⟩
  | .local _ .vmem, ⟨15, _⟩ => ⟨S256x128, .bf16⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_0 : Ref sig .tc := ⟨.hbm, 49, rfl⟩
abbrev main_v18 : Ref sig .tc := ⟨.hbm, 50, rfl⟩
abbrev main_cst_1 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v28 : Ref sig .tc := ⟨.hbm, 84, rfl⟩
abbrev main_cst_3 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst_4 : Ref sig .tc := ⟨.hbm, 89, rfl⟩
abbrev main_v32 : Ref sig .tc := ⟨.hbm, 90, rfl⟩
abbrev main_cst_5 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_6 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x128_S128x256_1_0 : S256x128.Transposes [1, 0] S128x256
  bitsLt_bf16_f32 : FTy.bits .bf16 < FTy.bits .f32
  shapeCasts_S256_S1x256 : S256.ShapeCasts S1x256
  transposes_S128x256_S256x128_1_0 : S128x256.Transposes [1, 0] S256x128
  shapeCasts_S128_S1x128 : S128.ShapeCasts S1x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S256x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.Comb.lean ====
/-
  One SAGE layer's dense combine, entry by entry, over the extended reals.

  For a block of R nodes with K input features and N output features the layer computes, at node r and feature j,

      (Σ_q mean[r, q] · wl[q, j]  +  Σ_q feat[r, q] · wr[q, j])  +  bl[0, j],

  where wl and wr are the two weight matrices already transposed to [K, N] and bl is the bias as a row. This module names that
  entry and shows that the kernel body's arithmetic — two matrix products into zero accumulators, their sum, the bias row
  laid over the rows — has it at (r, j). Narrowing an operand to bf16 changes nothing on the extended reals.
-/
import Idealize.ShloMosaic.PureOps.Ideal.Laws
import Idealize.ShloMosaic.Lib.ValueIdx
import Idealize.ShloMosaic.Lib.ValueLayout
import Idealize.ShloMosaic.Lib.Pipeline.Value
import proofs.«430129_j43860206026957_1_alg».proof.Proof.LibMatmulPlain

noncomputable section

namespace Cert.Sage

open Idealize.ShloMosaic Idealize.ShloMosaic.ValueIdx
open scoped BigOperators

variable {R K N : ℕ}

/-- Entry (r, j) of the layer, before any clamp. -/
def entry (mean feat : FVec Ideal ⟨2, ![R, K]⟩ .f32) (wl wr : FVec Ideal ⟨2, ![K, N]⟩ .bf16)
    (bl : FVec Ideal ⟨2, ![1, N]⟩ .f32) (r : Fin R) (j : Fin N) : EReal :=
  (∑ q : Fin K, mean (ix2 r q) * wl (ix2 q j) + ∑ q : Fin K, feat (ix2 r q) * wr (ix2 q j)) + bl (ix2 (0 : Fin 1) j)

/-- A row [1, N] laid over R rows reads, at (r, j), the row's entry j. -/
theorem broadcastTo_row_apply {α : Type} (v : (⟨2, ![1, N]⟩ : Shape).Idx → α) (h : (⟨2, ![1, N]⟩ : Shape).Broadcasts ⟨2, ![R, N]⟩)
    (r : Fin R) (j : Fin N) : broadcastTo ⟨2, ![R, N]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if N = 1 then 0 else j.val
    split
    · have := j.isLt; omega
    · rfl

/-- The body's arithmetic at (r, j): both products read as sums, the bias row read at its entry. -/
theorem combine_apply (mb xb : FVec Ideal ⟨2, ![R, K]⟩ .f32) (wl wr : FVec Ideal ⟨2, ![K, N]⟩ .bf16)
    (bl : FVec Ideal ⟨2, ![1, N]⟩ .f32) (hb : FTy.bf16.bits < FTy.f32.bits)
    (hbt : (⟨2, ![1, N]⟩ : Shape).Broadcasts ⟨2, ![R, N]⟩) (r : Fin R) (j : Fin N) :
    addf
        (addf (matmul (DotDims.plain R K N) none (truncf .bf16 mb hb) wl (constant ⟨2, ![R, N]⟩ .f32 0x00000000#32))
          (matmul (DotDims.plain R K N) none (truncf .bf16 xb hb) wr (constant ⟨2, ![R, N]⟩ .f32 0x00000000#32)))
        (broadcastTo ⟨2, ![R, N]⟩ bl hbt) (ix2 r j)
      = entry mb xb wl wr bl r j := by
  rw [addf_apply, addf_apply, Cert.LibMatmulPlain.matmul_plain_apply, Cert.LibMatmulPlain.matmul_plain_apply,
    broadcastTo_row_apply]
  rfl

end Cert.Sage

end
-- ==== Proof.Region0.lean ====
/-
  The first call's result array as one function of its operand arrays.

  The call walks 25 blocks of 2000 nodes. At block t the body reads rows 2000·t … 2000·t + 1999 of the mean aggregation and
  of x, the two whole weight matrices and the bias row, and stores, at (r, j) of the block,
  max((Σ_q mean[2000·t + r, q]·wl[q, j] + Σ_q x[2000·t + r, q]·wr[q, j]) + bl[0, j], 0).
  The 25 blocks tile the [50000, 256] result, so after the call the result array is that formula at every (node, feature).
-/
import proofs.«430129_j43860206026957_1_alg».proof.Proof.Gen.KernelIdeal.Frame
import proofs.«430129_j43860206026957_1_alg».proof.Proof.Comb
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer over whole arrays: at (node, feature) the clamped entry. -/
def layer (mean x : Vec Ideal S50000x128 .f32) (wl : Vec Ideal S128x256 .bf16) (bl : Vec Ideal S1x256 .f32)
    (wr : Vec Ideal S128x256 .bf16) : Vec Ideal S50000x256 .f32 :=
  fun i => max (Sage.entry (R := 50000) (K := 128) (N := 256) mean x wl wr bl ⟨(i 0).val, idx2_lt0 i⟩ ⟨(i 1).val, idx2_lt1 i⟩) 0

/-- The body's stored value at (r, j) of a block: the clamped entry over the block's operands. -/
theorem pay_apply (mb xb : Vec Ideal S2000x128 .f32) (wl wr : Vec Ideal S128x256 .bf16) (bl : Vec Ideal S1x256 .f32)
    (r : Fin 2000) (j : Fin 256) :
    k0_pay1 mb xb wl wr bl (ix2 r j) = max (Sage.entry (R := 2000) (K := 128) (N := 256) mb xb wl wr bl r j) 0 := by
  unfold k0_pay1
  simp only [shapeCast_self]
  refine (maximumf_apply _ _ _).trans ?_
  refine congrArg₂ max ?_ ?_
  · exact Sage.combine_apply (R := 2000) (K := 128) (N := 256) mb xb wl wr bl _ _ r j
  · exact Ideal.ofBits_zero_f32

/-- The printed index maps, decided once over the grid: the two row-blocked operands move with the result's block, the
    weights and the bias stay at block 0, and there are 25 row blocks. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every row block of the result is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- Row r of the mean's block at point t is row 2000·(block index) + r of the mean array. -/
theorem iblk_mean (c : Dev nD) (t : Fin cfg0.N) (r : Fin 2000) (q : Fin 128) (i : S50000x128.Idx)
    (h0 : (i 0).val = win0_5.index t (0 : Fin 2) * 2000 + r.val) (h1 : (i 1).val = q.val) :
    (iblk0 V c 0 t : Vec Ideal S2000x128 .f32) (ix2 r q) = (V c main_v26 : Vec Ideal S50000x128 .f32) i := by
  obtain ⟨e00, e01, -⟩ := idx_facts t
  unfold iblk0
  rw [View.read_apply]
  show (V c main_v26 : Vec Ideal S50000x128 .f32) _ = _
  congr 1
  funext a
  apply Fin.ext
  match a with
  | ⟨0, _⟩ => show win0_0.index t (0 : Fin 2) * 2000 + 1 * r.val = (i 0).val; rw [h0, e00]; omega
  | ⟨1, _⟩ => show win0_0.index t (1 : Fin 2) * 128 + 1 * q.val = (i 1).val; rw [h1, e01]; omega

/-- Likewise for x. -/
theorem iblk_x (c : Dev nD) (t : Fin cfg0.N) (r : Fin 2000) (q : Fin 128) (i : S50000x128.Idx)
    (h0 : (i 0).val = win0_5.index t (0 : Fin 2) * 2000 + r.val) (h1 : (i 1).val = q.val) :
    (iblk0 V c 1 t : Vec Ideal S2000x128 .f32) (ix2 r q) = (V c main_arg0 : Vec Ideal S50000x128 .f32) i := by
  obtain ⟨-, -, e10, e11, -⟩ := idx_facts t
  unfold iblk0
  rw [View.read_apply]
  show (V c main_arg0 : Vec Ideal S50000x128 .f32) _ = _
  congr 1
  funext a
  apply Fin.ext
  match a with
  | ⟨0, _⟩ => show win0_1.index t (0 : Fin 2) * 2000 + 1 * r.val = (i 0).val; rw [h0, e10]; omega
  | ⟨1, _⟩ => show win0_1.index t (1 : Fin 2) * 128 + 1 * q.val = (i 1).val; rw [h1, e11]; omega

/-- The left weight's block is the whole matrix at every point. -/
theorem iblk_wl (c : Dev nD) (t : Fin cfg0.N) :
    (iblk0 V c 2 t : Vec Ideal S128x256 .bf16) = (V c main_v5 : Vec Ideal S128x256 .bf16) := by
  obtain ⟨-, -, -, -, e20, e21, -⟩ := idx_facts t
  funext y
  unfold iblk0
  rw [View.read_apply]
  show (V c main_v5 : Vec Ideal S128x256 .bf16) _ = _
  congr 1
  funext a
  apply Fin.ext
  match a with
  | ⟨0, _⟩ => show win0_2.index t (0 : Fin 2) * 128 + 1 * (y 0).val = (y 0).val; rw [e20]; omega
  | ⟨1, _⟩ => show win0_2.index t (1 : Fin 2) * 256 + 1 * (y 1).val = (y 1).val; rw [e21]; omega

/-- The bias row's block is the whole row. -/
theorem iblk_bl (c : Dev nD) (t : Fin cfg0.N) :
    (iblk0 V c 3 t : Vec Ideal S1x256 .f32) = (V c main_v8 : Vec Ideal S1x256 .f32) := by
  obtain ⟨-, -, -, -, -, -, e30, e31, -⟩ := idx_facts t
  funext y
  unfold iblk0
  rw [View.read_apply]
  show (V c main_v8 : Vec Ideal S1x256 .f32) _ = _
  congr 1
  funext a
  apply Fin.ext
  match a with
  | ⟨0, _⟩ => show win0_3.index t (0 : Fin 2) * 1 + 1 * (y 0).val = (y 0).val; rw [e30]; omega
  | ⟨1, _⟩ => show win0_3.index t (1 : Fin 2) * 256 + 1 * (y 1).val = (y 1).val; rw [e31]; omega

/-- The right weight's block is the whole matrix. -/
theorem iblk_wr (c : Dev nD) (t : Fin cfg0.N) :
    (iblk0 V c 4 t : Vec Ideal S128x256 .bf16) = (V c main_v7 : Vec Ideal S128x256 .bf16) := by
  obtain ⟨-, -, -, -, -, -, -, -, e40, e41, -⟩ := idx_facts t
  funext y
  unfold iblk0
  rw [View.read_apply]
  show (V c main_v7 : Vec Ideal S128x256 .bf16) _ = _
  congr 1
  funext a
  apply Fin.ext
  match a with
  | ⟨0, _⟩ => show win0_4.index t (0 : Fin 2) * 128 + 1 * (y 0).val = (y 0).val; rw [e40]; omega
  | ⟨1, _⟩ => show win0_4.index t (1 : Fin 2) * 256 + 1 * (y 1).val = (y 1).val; rw [e41]; omega

/-- One point: with the row-blocked operands read as rows 2000·k + r of their arrays, the body's stored value at y of
    the block is the layer at the array index i that y sits at. -/
theorem point_eq (mb xb : Vec Ideal S2000x128 .f32) (wl wr : Vec Ideal S128x256 .bf16) (bl : Vec Ideal S1x256 .f32)
    (mean x : Vec Ideal S50000x128 .f32) (k : ℕ)
    (hm : ∀ (r : Fin 2000) (q : Fin 128) (i : S50000x128.Idx), (i 0).val = k * 2000 + r.val → (i 1).val = q.val → mb (ix2 r q) = mean i)
    (hx : ∀ (r : Fin 2000) (q : Fin 128) (i : S50000x128.Idx), (i 0).val = k * 2000 + r.val → (i 1).val = q.val → xb (ix2 r q) = x i)
    (y : S2000x256.Idx) (i : S50000x256.Idx) (hi0 : (i 0).val = k * 2000 + (y 0).val) (hi1 : (i 1).val = (y 1).val) :
    k0_pay1 mb xb wl wr bl y = layer mean x wl bl wr i := by
  obtain ⟨r, j, rfl⟩ : ∃ (r : Fin 2000) (j : Fin 256), y = ix2 r j := ⟨y 0, y 1, eq_ix2 y⟩
  rw [pay_apply]
  have hj : (⟨(i 1).val, idx2_lt1 i⟩ : Fin 256) = j := Fin.ext hi1
  have hmr : ∀ q : Fin 128, mb (ix2 r q) = mean (ix2 (⟨(i 0).val, idx2_lt0 i⟩ : Fin 50000) q) := fun q => hm r q _ hi0 rfl
  have hxr : ∀ q : Fin 128, xb (ix2 r q) = x (ix2 (⟨(i 0).val, idx2_lt0 i⟩ : Fin 50000) q) := fun q => hx r q _ hi0 rfl
  unfold layer Sage.entry
  rw [hj]
  simp only [hmr, hxr]

/-- What point t writes back is block t of the layer over the operand arrays as the call finds them. -/
theorem flushed_eq (c : Dev nD) (t : Fin cfg0.N) :
    (dat0 V c).flushed 5 t = ((cfg0.win 5).blk t).view.read (Elt Ideal)
      (layer (V c main_v26) (V c main_arg0) (V c main_v5) (V c main_v8) (V c main_v7)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  rw [iblk_wl V c t, iblk_bl V c t, iblk_wr V c t]
  obtain ⟨-, -, -, -, -, -, -, -, -, -, e51, -⟩ := idx_facts t
  funext y
  refine point_eq _ _ _ _ _ (V c main_v26) (V c main_arg0) (win0_5.index t (0 : Fin 2))
    (fun r q i h0 h1 => iblk_mean V c t r q i h0 h1) (fun r q i h0 h1 => iblk_x V c t r q i h0 h1) y _ ?_ ?_
  · show win0_5.index t (0 : Fin 2) * 2000 + 1 * (y 0).val = _; omega
  · show win0_5.index t (1 : Fin 2) * 256 + 1 * (y 1).val = _; rw [e51]; omega

/-- An index of the result is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v27).slice (win0_5.rect t)).set ↔ _
  rw [View.set_slice_whole, Rect.mem_set_unit]
  exact Iff.rfl

/-- THE RESULT ARRAY after the call: the layer over the operand arrays, at every (node, feature). -/
theorem array_eq (c : Dev nD) :
    (dat0 V c).arrAt 5 cfg0.N = layer (V c main_v26) (V c main_arg0) (V c main_v5) (V c main_v8) (V c main_v7) :=
  (dat0 V c).arrAt_eq_of_cover 5 _ (fun t _ => flushed_eq V c t) fun i => by
    have h0 : (i 0).val < 50000 := (i 0).isLt
    have h1 : (i 1).val < 256 := (i 1).isLt
    obtain ⟨t, ht⟩ := idx_onto ⟨(i 0).val / 2000, by omega⟩
    have q0 : win0_5.index t (0 : Fin 2) = (i 0).val / 2000 := congrFun ht 0
    have q1 : win0_5.index t (1 : Fin 2) = 0 := congrFun ht 1
    refine ⟨t, flush0_5 t, ?_⟩
    rw [mem_blk]
    intro a
    match a with
    | ⟨0, _⟩ => show win0_5.index t (0 : Fin 2) * 2000 ≤ (i 0).val ∧ (i 0).val < win0_5.index t (0 : Fin 2) * 2000 + 2000; omega
    | ⟨1, _⟩ => show win0_5.index t (1 : Fin 2) * 256 ≤ (i 1).val ∧ (i 1).val < win0_5.index t (1 : Fin 2) * 256 + 256; omega

end Cert.KernelIdeal.Region0

end
-- ==== Proof.Region1.lean ====
/-
  The second call's result array as one function of its operand arrays.

  The call walks 25 blocks of 2000 nodes. At block t the body reads rows 2000·t … 2000·t + 1999 of the mean aggregation of h
  and of h, the two whole weight matrices and the bias row, and stores, at (r, j) of the block,
  (Σ_q mean[2000·t + r, q]·wl[q, j] + Σ_q h[2000·t + r, q]·wr[q, j]) + bl[0, j]   (no clamp in the last layer).
  The 25 blocks tile the [50000, 128] result, so after the call the result array is that formula at every (node, feature).
-/
import proofs.«430129_j43860206026957_1_alg».proof.Proof.Gen.KernelIdeal.Frame
import proofs.«430129_j43860206026957_1_alg».proof.Proof.Comb
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer over whole arrays: at (node, feature) the entry. -/
def layer (mean x : Vec Ideal S50000x256 .f32) (wl : Vec Ideal S256x128 .bf16) (bl : Vec Ideal S1x128 .f32)
    (wr : Vec Ideal S256x128 .bf16) : Vec Ideal S50000x128 .f32 :=
  fun i => Sage.entry (R := 50000) (K := 256) (N := 128) mean x wl wr bl ⟨(i 0).val, idx2_lt0 i⟩ ⟨(i 1).val, idx2_lt1 i⟩

/-- The body's stored value at (r, j) of a block: the entry over the block's operands. -/
theorem pay_apply (mb xb : Vec Ideal S2000x256 .f32) (wl wr : Vec Ideal S256x128 .bf16) (bl : Vec Ideal S1x128 .f32)
    (r : Fin 2000) (j : Fin 128) :
    k1_pay1 mb xb wl wr bl (ix2 r j) = Sage.entry (R := 2000) (K := 256) (N := 128) mb xb wl wr bl r j := by
  unfold k1_pay1
  simp only [shapeCast_self]
  exact Sage.combine_apply (R := 2000) (K := 256) (N := 128) mb xb wl wr bl _ _ r j

/-- The printed index maps, decided once over the grid: the two row-blocked operands move with the result's block, the
    weights and the bias stay at block 0, and there are 25 row blocks. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every row block of the result is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- Row r of the mean's block at point t is row 2000·(block index) + r of the mean array. -/
theorem iblk_mean (c : Dev nD) (t : Fin cfg1.N) (r : Fin 2000) (q : Fin 256) (i : S50000x256.Idx)
    (h0 : (i 0).val = win1_5.index t (0 : Fin 2) * 2000 + r.val) (h1 : (i 1).val = q.val) :
    (iblk1 V c 0 t : Vec Ideal S2000x256 .f32) (ix2 r q) = (V c main_v40 : Vec Ideal S50000x256 .f32) i := by
  obtain ⟨e00, e01, -⟩ := idx_facts t
  unfold iblk1
  rw [View.read_apply]
  show (V c main_v40 : Vec Ideal S50000x256 .f32) _ = _
  congr 1
  funext a
  apply Fin.ext
  match a with
  | ⟨0, _⟩ => show win1_0.index t (0 : Fin 2) * 2000 + 1 * r.val = (i 0).val; rw [h0, e00]; omega
  | ⟨1, _⟩ => show win1_0.index t (1 : Fin 2) * 256 + 1 * q.val = (i 1).val; rw [h1, e01]; omega

/-- Likewise for h. -/
theorem iblk_x (c : Dev nD) (t : Fin cfg1.N) (r : Fin 2000) (q : Fin 256) (i : S50000x256.Idx)
    (h0 : (i 0).val = win1_5.index t (0 : Fin 2) * 2000 + r.val) (h1 : (i 1).val = q.val) :
    (iblk1 V c 1 t : Vec Ideal S2000x256 .f32) (ix2 r q) = (V c main_v27 : Vec Ideal S50000x256 .f32) i := by
  obtain ⟨-, -, e10, e11, -⟩ := idx_facts t
  unfold iblk1
  rw [View.read_apply]
  show (V c main_v27 : Vec Ideal S50000x256 .f32) _ = _
  congr 1
  funext a
  apply Fin.ext
  match a with
  | ⟨0, _⟩ => show win1_1.index t (0 : Fin 2) * 2000 + 1 * r.val = (i 0).val; rw [h0, e10]; omega
  | ⟨1, _⟩ => show win1_1.index t (1 : Fin 2) * 256 + 1 * q.val = (i 1).val; rw [h1, e11]; omega

/-- The left weight's block is the whole matrix at every point. -/
theorem iblk_wl (c : Dev nD) (t : Fin cfg1.N) :
    (iblk1 V c 2 t : Vec Ideal S256x128 .bf16) = (V c main_v10 : Vec Ideal S256x128 .bf16) := by
  obtain ⟨-, -, -, -, e20, e21, -⟩ := idx_facts t
  funext y
  unfold iblk1
  rw [View.read_apply]
  show (V c main_v10 : Vec Ideal S256x128 .bf16) _ = _
  congr 1
  funext a
  apply Fin.ext
  match a with
  | ⟨0, _⟩ => show win1_2.index t (0 : Fin 2) * 256 + 1 * (y 0).val = (y 0).val; rw [e20]; omega
  | ⟨1, _⟩ => show win1_2.index t (1 : Fin 2) * 128 + 1 * (y 1).val = (y 1).val; rw [e21]; omega

/-- The bias row's block is the whole row. -/
theorem iblk_bl (c : Dev nD) (t : Fin cfg1.N) :
    (iblk1 V c 3 t : Vec Ideal S1x128 .f32) = (V c main_v13 : Vec Ideal S1x128 .f32) := by
  obtain ⟨-, -, -, -, -, -, e30, e31, -⟩ := idx_facts t
  funext y
  unfold iblk1
  rw [View.read_apply]
  show (V c main_v13 : Vec Ideal S1x128 .f32) _ = _
  congr 1
  funext a
  apply Fin.ext
  match a with
  | ⟨0, _⟩ => show win1_3.index t (0 : Fin 2) * 1 + 1 * (y 0).val = (y 0).val; rw [e30]; omega
  | ⟨1, _⟩ => show win1_3.index t (1 : Fin 2) * 128 + 1 * (y 1).val = (y 1).val; rw [e31]; omega

/-- The right weight's block is the whole matrix. -/
theorem iblk_wr (c : Dev nD) (t : Fin cfg1.N) :
    (iblk1 V c 4 t : Vec Ideal S256x128 .bf16) = (V c main_v12 : Vec Ideal S256x128 .bf16) := by
  obtain ⟨-, -, -, -, -, -, -, -, e40, e41, -⟩ := idx_facts t
  funext y
  unfold iblk1
  rw [View.read_apply]
  show (V c main_v12 : Vec Ideal S256x128 .bf16) _ = _
  congr 1
  funext a
  apply Fin.ext
  match a with
  | ⟨0, _⟩ => show win1_4.index t (0 : Fin 2) * 256 + 1 * (y 0).val = (y 0).val; rw [e40]; omega
  | ⟨1, _⟩ => show win1_4.index t (1 : Fin 2) * 128 + 1 * (y 1).val = (y 1).val; rw [e41]; omega

/-- One point: with the row-blocked operands read as rows 2000·k + r of their arrays, the body's stored value at y of
    the block is the layer at the array index i that y sits at. -/
theorem point_eq (mb xb : Vec Ideal S2000x256 .f32) (wl wr : Vec Ideal S256x128 .bf16) (bl : Vec Ideal S1x128 .f32)
    (mean x : Vec Ideal S50000x256 .f32) (k : ℕ)
    (hm : ∀ (r : Fin 2000) (q : Fin 256) (i : S50000x256.Idx), (i 0).val = k * 2000 + r.val → (i 1).val = q.val → mb (ix2 r q) = mean i)
    (hx : ∀ (r : Fin 2000) (q : Fin 256) (i : S50000x256.Idx), (i 0).val = k * 2000 + r.val → (i 1).val = q.val → xb (ix2 r q) = x i)
    (y : S2000x128.Idx) (i : S50000x128.Idx) (hi0 : (i 0).val = k * 2000 + (y 0).val) (hi1 : (i 1).val = (y 1).val) :
    k1_pay1 mb xb wl wr bl y = layer mean x wl bl wr i := by
  obtain ⟨r, j, rfl⟩ : ∃ (r : Fin 2000) (j : Fin 128), y = ix2 r j := ⟨y 0, y 1, eq_ix2 y⟩
  rw [pay_apply]
  have hj : (⟨(i 1).val, idx2_lt1 i⟩ : Fin 128) = j := Fin.ext hi1
  have hmr : ∀ q : Fin 256, mb (ix2 r q) = mean (ix2 (⟨(i 0).val, idx2_lt0 i⟩ : Fin 50000) q) := fun q => hm r q _ hi0 rfl
  have hxr : ∀ q : Fin 256, xb (ix2 r q) = x (ix2 (⟨(i 0).val, idx2_lt0 i⟩ : Fin 50000) q) := fun q => hx r q _ hi0 rfl
  unfold layer Sage.entry
  rw [hj]
  simp only [hmr, hxr]

/-- What point t writes back is block t of the layer over the operand arrays as the call finds them. -/
theorem flushed_eq (c : Dev nD) (t : Fin cfg1.N) :
    (dat1 V c).flushed 5 t = ((cfg1.win 5).blk t).view.read (Elt Ideal)
      (layer (V c main_v40) (V c main_v27) (V c main_v10) (V c main_v13) (V c main_v12)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  rw [iblk_wl V c t, iblk_bl V c t, iblk_wr V c t]
  obtain ⟨-, -, -, -, -, -, -, -, -, -, e51, -⟩ := idx_facts t
  funext y
  refine point_eq _ _ _ _ _ (V c main_v40) (V c main_v27) (win1_5.index t (0 : Fin 2))
    (fun r q i h0 h1 => iblk_mean V c t r q i h0 h1) (fun r q i h0 h1 => iblk_x V c t r q i h0 h1) y _ ?_ ?_
  · show win1_5.index t (0 : Fin 2) * 2000 + 1 * (y 0).val = _; omega
  · show win1_5.index t (1 : Fin 2) * 128 + 1 * (y 1).val = _; rw [e51]; omega

/-- An index of the result is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- THE RESULT ARRAY after the call: the layer over the operand arrays, at every (node, feature). -/
theorem array_eq (c : Dev nD) :
    (dat1 V c).arrAt 5 cfg1.N = layer (V c main_v40) (V c main_v27) (V c main_v10) (V c main_v13) (V c main_v12) :=
  (dat1 V c).arrAt_eq_of_cover 5 _ (fun t _ => flushed_eq V c t) fun i => by
    have h0 : (i 0).val < 50000 := (i 0).isLt
    have h1 : (i 1).val < 128 := (i 1).isLt
    obtain ⟨t, ht⟩ := idx_onto ⟨(i 0).val / 2000, by omega⟩
    have q0 : win1_5.index t (0 : Fin 2) = (i 0).val / 2000 := congrFun ht 0
    have q1 : win1_5.index t (1 : Fin 2) = 0 := congrFun ht 1
    refine ⟨t, flush1_5 t, ?_⟩
    rw [mem_blk]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 128 ≤ (i 1).val ∧ (i 1).val < win1_5.index t (1 : Fin 2) * 128 + 128; omega

end Cert.KernelIdeal.Region1

end
-- ==== Proof.TakeDefs.lean ====
/-
  The gather with a fill, as the kernel's host code spells it.

  `jnp.take(feat, src, axis=0)` wraps a negative index once (src < 0 ↦ src + 50000), gathers the rows at the wrapped
  indices, and then replaces every row whose wrapped index lies outside [0, 49999] by a fill word. This module names the
  pieces over one edge array e : [2, 800000]: the source words (row 0 of e), their wrapped form as a column, the
  per-edge bit "the wrapped index is in range", and the filled take of a table of 128 or of 256 columns.
-/
import proofs.«430129_j43860206026957_1_alg».proof.Proof.Gen.KernelIdeal

noncomputable section

namespace Cert.KernelIdeal.Take

open Idealize.ShloMosaic Cert.KernelIdeal
open Cert.KernelIdeal.Facts₀

variable {F : FTy → Type} [FloatOps F]

/-- Row 0 of the edge array: the source node of every edge. -/
def src (e : IVec S2x800000 32) : IVec S800000 32 :=
  shapeCast S800000 (extractStridedSlice S1x800000 ![0, 0] e slices_S2x800000_S1x800000_0_0) shapeCasts_S1x800000_S800000

/-- Row 1 of the edge array: the destination node of every edge. -/
def dst (e : IVec S2x800000 32) : IVec S800000 32 :=
  shapeCast S800000 (extractStridedSlice S1x800000 ![1, 0] e slices_S2x800000_S1x800000_1_0) shapeCasts_S1x800000_S800000

/-- A negative source word moved up by the table's 50000 rows, any other word kept. -/
def wrapped (e : IVec S2x800000 32) : IVec S800000 32 :=
  select (cmpi .slt (src e) (broadcastInDim S800000 ![] bcast_S_S800000 (constantI S_ 32 0#32)))
    (addi (src e) (broadcastInDim S800000 ![] bcast_S_S800000 (constantI S_ 32 50000#32))) (src e)

/-- The wrapped source words as the gather's column of start indices. -/
def idxCol (e : IVec S2x800000 32) : IVec S800000x1 32 :=
  broadcastInDim S800000x1 ![0] bcast_S800000_S800000x1_0 (wrapped e)

/-- Per edge: is the wrapped index inside [0, 49999]? -/
def inRange (e : IVec S2x800000 32) : IVec S800000 1 :=
  Host.reduce IntOp.andi
    (andi (cmpi .sge (idxCol e) (broadcastInDim S800000x1 ![] bcast_S_S800000x1 (constantI S_ 32 0#32)))
      (cmpi .sle (idxCol e) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The filled take of a 128-column table: the gathered row where the wrapped index is in range, the fill word elsewhere. -/
def take128 (x : FVec F S50000x128 .f32) (e : IVec S2x800000 32) : FVec F S800000x128 .f32 :=
  select (broadcastInDim S800000x128 ![0] bcast_S800000_S800000x128_0 (inRange e))
    (Host.gather gather_S50000x128_S800000x1_S800000x128_1_0_n_n_0_1_1128 x (idxCol e))
    (broadcastInDim S800000x128 ![] bcast_S_S800000x128 (constant (F := F) S_ .f32 0x7FC00000#32))

/-- The filled take of a 256-column table. -/
def take256 (x : FVec F S50000x256 .f32) (e : IVec S2x800000 32) : FVec F S800000x256 .f32 :=
  select (broadcastInDim S800000x256 ![0] bcast_S800000_S800000x256_0 (inRange e))
    (Host.gather gather_S50000x256_S800000x1_S800000x256_1_0_n_n_0_1_1256 x (idxCol e))
    (broadcastInDim S800000x256 ![] bcast_S_S800000x256 (constant (F := F) S_ .f32 0x7FC00000#32))

/-- The destination words as the scatter's column of indices. -/
def dstCol (e : IVec S2x800000 32) : IVec S800000x1 32 :=
  broadcastInDim S800000x1 ![0] bcast_S800000_S800000x1_0 (dst e)

/-- Per node: the number of edges that end there, but at least one. -/
def deg (e : IVec S2x800000 32) : FVec F S50000 .f32 :=
  maximumf
    (Host.scatterAdd scatter_S50000_S800000x1_S800000_n_0_0_1
      (broadcastInDim S50000 ![] bcast_S_S50000 (constant (F := F) S_ .f32 0x00000000#32)) (dstCol e)
      (broadcastInDim S800000 ![] bcast_S_S800000 (constant (F := F) S_ .f32 0x3F800000#32)))
    (broadcastInDim S50000 ![] bcast_S_S50000 (constant (F := F) S_ .f32 0x3F800000#32))

/-- Mean aggregation of a 128-column table: the filled take of the source rows, summed per destination node,
    divided by that node's degree. -/
def mean128 (x : FVec F S50000x128 .f32) (e : IVec S2x800000 32) : FVec F S50000x128 .f32 :=
  Host.divf
    (Host.scatterAdd scatter_S50000x128_S800000x1_S800000x128_1_0_0_1
      (broadcastInDim S50000x128 ![] bcast_S_S50000x128 (constant (F := F) S_ .f32 0x00000000#32)) (dstCol e) (take128 x e))
    (broadcastInDim S50000x128 ![0, 1] bcast_S50000x1_S50000x128_0_1
      (broadcastInDim S50000x1 ![0] bcast_S50000_S50000x1_0 (deg (F := F) e)))

/-- Mean aggregation of a 256-column table. -/
def mean256 (x : FVec F S50000x256 .f32) (e : IVec S2x800000 32) : FVec F S50000x256 .f32 :=
  Host.divf
    (Host.scatterAdd scatter_S50000x256_S800000x1_S800000x256_1_0_0_1
      (broadcastInDim S50000x256 ![] bcast_S_S50000x256 (constant (F := F) S_ .f32 0x00000000#32)) (dstCol e) (take256 x e))
    (broadcastInDim S50000x256 ![0, 1] bcast_S50000x1_S50000x256_0_1
      (broadcastInDim S50000x1 ![0] bcast_S50000_S50000x1_0 (deg (F := F) e)))

end Cert.KernelIdeal.Take

end
-- ==== Proof.HostTake.lean ====
/-
  The two filled takes, read back.

  The host code's `jnp.take` of x (before the first call) and of h (between the calls) is a run of twenty-odd small
  operations: the wrap of negative indices, the gather, the range test, the fill. Read back through that run, the buffer it
  ends in holds the filled take as defined beside this module (the wrapped index column, the in-range bit, the select): of x
  with the launch's edge array, and of the first call's result with the same edge array.
-/
import proofs.«430129_j43860206026957_1_alg».proof.Proof.Gen.KernelIdeal.Frame
import proofs.«430129_j43860206026957_1_alg».proof.Proof.TakeDefs
import Idealize.ShloMosaic.Lib.StableHlo.Run

set_option maxRecDepth 65536

noncomputable section

namespace Cert.KernelIdeal.HostChain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The source words, as the first stretch leaves them, stay in place up to the first call's entry and past it. -/
theorem src_at_W3 (c : Dev nD) : W3 m ρ c (Proc.devRef .tc main_v1) = Take.src (m ((c : Thread nD τ).loc main_arg1)) := by
  show StableHlo.after hostOps0_2 (StableHlo.after hostOps0_1 (StableHlo.after hostOps0 (W0 m ρ c))) (Proc.devRef .tc main_v1) = _
  after_results_simp <;> rfl

/-- The destination words likewise. -/
theorem dst_at_W3 (c : Dev nD) : W3 m ρ c (Proc.devRef .tc main_v3) = Take.dst (m ((c : Thread nD τ).loc main_arg1)) := by
  show StableHlo.after hostOps0_2 (StableHlo.after hostOps0_1 (StableHlo.after hostOps0 (W0 m ρ c))) (Proc.devRef .tc main_v3) = _
  after_results_simp <;> rfl

theorem src_at_W4 (c : Dev nD) : W4 m ρ c (Proc.devRef .tc main_v1) = Take.src (m ((c : Thread nD τ).loc main_arg1)) :=
  (W4_of_ne m ρ c main_v1 (by decide)).trans (src_at_W3 m ρ c)

theorem dst_at_W4 (c : Dev nD) : W4 m ρ c (Proc.devRef .tc main_v3) = Take.dst (m ((c : Thread nD τ).loc main_arg1)) :=
  (W4_of_ne m ρ c main_v3 (by decide)).trans (dst_at_W3 m ρ c)

/-- Before the first call: the filled take of x. -/
theorem take_at_W2 (c : Dev nD) :
    W2 m ρ c (Proc.devRef .tc main_v14)
      = Take.take128 (m ((c : Thread nD τ).loc main_arg0)) (m ((c : Thread nD τ).loc main_arg1)) := by
  show StableHlo.after hostOps0_1 (StableHlo.after hostOps0 (W0 m ρ c)) (Proc.devRef .tc main_v14) = _
  after_results_simp
  simp only [cast_eq]
  unfold Take.take128 Take.inRange Take.idxCol Take.wrapped Take.src
  rfl

/-- Between the calls: the filled take of the first call's result. -/
theorem take_at_W5 (c : Dev nD) :
    W5 m ρ c (Proc.devRef .tc main_v28)
      = Take.take256 (W4 m ρ c (Proc.devRef .tc main_v27)) (m ((c : Thread nD τ).loc main_arg1)) := by
  have hs := src_at_W4 m ρ c
  show StableHlo.after hostOps1 (W4 m ρ c) (Proc.devRef .tc main_v28) = _
  revert hs
  generalize W4 m ρ c = W
  intro hs
  after_results_simp
  simp only [cast_eq]
  rw [hs]
  unfold Take.take256 Take.inRange Take.idxCol Take.wrapped
  rfl

end Cert.KernelIdeal.HostChain

end
-- ==== Proof.HostChain.lean ====
/-
  What each pallas_call finds in its operand arrays.

  Between the launch and the first call the host code slices the edge array, transposes and narrows the four weight
  matrices, reshapes the two biases and aggregates x over the edges; between the two calls it aggregates the first
  call's result h. Here every array a call reads is read back through those stretches of host operations to a term of
  the launch arguments (and, for the second call, of the first call's result array).
-/
import proofs.«430129_j43860206026957_1_alg».proof.Proof.Gen.KernelIdeal.Frame
import proofs.«430129_j43860206026957_1_alg».proof.Proof.TakeDefs
import proofs.«430129_j43860206026957_1_alg».proof.Proof.HostTake
import Idealize.ShloMosaic.Lib.StableHlo.Run

set_option maxRecDepth 65536

noncomputable section

namespace Cert.KernelIdeal.HostChain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## At the first call's entry -/

/-- Its first operand is the mean aggregation of x over the edges. -/
theorem entry0_mean (c : Dev nD) :
    V3 m ρ c main_v26 = Take.mean128 (m ((c : Thread nD τ).loc main_arg0)) (m ((c : Thread nD τ).loc main_arg1)) := by
  have ht := take_at_W2 m ρ c
  have hd : W2 m ρ c (Proc.devRef .tc main_v3) = Take.dst (m ((c : Thread nD τ).loc main_arg1)) := by
    show StableHlo.after hostOps0_1 (StableHlo.after hostOps0 (W0 m ρ c)) (Proc.devRef .tc main_v3) = _
    after_results_simp <;> rfl
  show StableHlo.after hostOps0_2 (W2 m ρ c) (Proc.devRef .tc main_v26) = _
  revert ht hd
  generalize W2 m ρ c = W
  intro ht hd
  after_results_simp
  rw [ht, hd]
  rfl

/-- Its second operand is x itself. -/
theorem entry0_x (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl

/-- Its third operand is W1_l transposed (and narrowed). -/
theorem entry0_wl (c : Dev nD) :
    V3 m ρ c main_v5 = truncf .bf16 (transpose S128x256 [1, 0] (m ((c : Thread nD τ).loc main_arg2)) Facts₀.transposes_S256x128_S128x256_1_0) bitsLt_bf16_f32 := by
  show StableHlo.after hostOps0_2 (StableHlo.after hostOps0_1 (StableHlo.after hostOps0 (W0 m ρ c))) (Proc.devRef .tc main_v5) = _
  after_results_simp <;> rfl

/-- Its fourth operand is b1_l as a row. -/
theorem entry0_bl (c : Dev nD) :
    V3 m ρ c main_v8 = shapeCast S1x256 (m ((c : Thread nD τ).loc main_arg3)) Facts₀.shapeCasts_S256_S1x256 := by
  show StableHlo.after hostOps0_2 (StableHlo.after hostOps0_1 (StableHlo.after hostOps0 (W0 m ρ c))) (Proc.devRef .tc main_v8) = _
  after_results_simp <;> rfl

/-- Its fifth operand is W1_r transposed (and narrowed). -/
theorem entry0_wr (c : Dev nD) :
    V3 m ρ c main_v7 = truncf .bf16 (transpose S128x256 [1, 0] (m ((c : Thread nD τ).loc main_arg4)) Facts₀.transposes_S256x128_S128x256_1_0) bitsLt_bf16_f32 := by
  show StableHlo.after hostOps0_2 (StableHlo.after hostOps0_1 (StableHlo.after hostOps0 (W0 m ρ c))) (Proc.devRef .tc main_v7) = _
  after_results_simp <;> rfl

/-! ## At the second call's entry -/

/-- The first call's result array h, as the second call finds it. -/
theorem entry1_h (c : Dev nD) : V6 m ρ c main_v27 = V4 m ρ c main_v27 := by
  show StableHlo.after hostOps1_1 (StableHlo.after hostOps1 (W4 m ρ c)) (Proc.devRef .tc main_v27) = W4 m ρ c (Proc.devRef .tc main_v27)
  generalize W4 m ρ c = W
  after_results_simp <;> rfl

/-- Its first operand is the mean aggregation of h over the edges. -/
theorem entry1_mean (c : Dev nD) :
    V6 m ρ c main_v40 = Take.mean256 (V4 m ρ c main_v27) (m ((c : Thread nD τ).loc main_arg1)) := by
  have ht := take_at_W5 m ρ c
  have hd : W5 m ρ c (Proc.devRef .tc main_v3) = Take.dst (m ((c : Thread nD τ).loc main_arg1)) := by
    have h4 := dst_at_W4 m ρ c
    show StableHlo.after hostOps1 (W4 m ρ c) (Proc.devRef .tc main_v3) = _
    revert h4
    generalize W4 m ρ c = W
    intro h4
    after_results_simp
    exact h4
  show StableHlo.after hostOps1_1 (W5 m ρ c) (Proc.devRef .tc main_v40) = _
  revert ht hd
  generalize W5 m ρ c = W
  intro ht hd
  after_results_simp
  rw [ht, hd]
  rfl

/-- A buffer the first stretch wrote and nothing later writes, as the second call finds it. -/
theorem entry1_of_entry0 (c : Dev nD) (b : Ref sig .tc) (hb : ∀ w, Pipeline.arrRef spec0 w ≠ b)
    (h1 : StableHlo.after hostOps1_1 (StableHlo.after hostOps1 (W4 m ρ c)) (Proc.devRef .tc b) = W4 m ρ c (Proc.devRef .tc b)) :
    V6 m ρ c b = V3 m ρ c b :=
  h1.trans (W4_of_ne m ρ c b hb)

/-- Its third operand is W2_l transposed (and narrowed). -/
theorem entry1_wl (c : Dev nD) :
    V6 m ρ c main_v10 = truncf .bf16 (transpose S256x128 [1, 0] (m ((c : Thread nD τ).loc main_arg5)) Facts₀.transposes_S128x256_S256x128_1_0) bitsLt_bf16_f32 := by
  refine (entry1_of_entry0 m ρ c main_v10 (by decide) ?_).trans ?_
  · generalize W4 m ρ c = W
    after_results_simp <;> rfl
  · show StableHlo.after hostOps0_2 (StableHlo.after hostOps0_1 (StableHlo.after hostOps0 (W0 m ρ c))) (Proc.devRef .tc main_v10) = _
    after_results_simp <;> rfl

/-- Its fourth operand is b2_l as a row. -/
theorem entry1_bl (c : Dev nD) :
    V6 m ρ c main_v13 = shapeCast S1x128 (m ((c : Thread nD τ).loc main_arg6)) Facts₀.shapeCasts_S128_S1x128 := by
  refine (entry1_of_entry0 m ρ c main_v13 (by decide) ?_).trans ?_
  · generalize W4 m ρ c = W
    after_results_simp <;> rfl
  · show StableHlo.after hostOps0_2 (StableHlo.after hostOps0_1 (StableHlo.after hostOps0 (W0 m ρ c))) (Proc.devRef .tc main_v13) = _
    after_results_simp <;> rfl

/-- Its fifth operand is W2_r transposed (and narrowed). -/
theorem entry1_wr (c : Dev nD) :
    V6 m ρ c main_v12 = truncf .bf16 (transpose S256x128 [1, 0] (m ((c : Thread nD τ).loc main_arg7)) Facts₀.transposes_S128x256_S256x128_1_0) bitsLt_bf16_f32 := by
  refine (entry1_of_entry0 m ρ c main_v12 (by decide) ?_).trans ?_
  · generalize W4 m ρ c = W
    after_results_simp <;> rfl
  · show StableHlo.after hostOps0_2 (StableHlo.after hostOps0_1 (StableHlo.after hostOps0 (W0 m ρ c))) (Proc.devRef .tc main_v12) = _
    after_results_simp <;> rfl

end Cert.KernelIdeal.HostChain

end
-- ==== Proof.PreDecode.lean ====
/-
  The gather with a fill, under the precondition on the edge array: the fill never fires.

  The precondition's last conjunct says every source word s (row 0 of the edge array) satisfies −50000 ≤ s < 50000 as a
  signed 32-bit integer. A word in [−50000, 0) moved up by 50000 lands in [0, 50000), a word in [0, 50000) is kept, so
  the wrapped word is always in [0, 49999]: both compares of the in-range test hold on every edge, their conjunction
  reduced over the column's one entry is 1, and a select on a bit that is 1 everywhere is its first operand. Hence the
  filled take of a table is the plain gather of its rows at the wrapped indices.
-/
import proofs.«430129_j43860206026957_1_alg».proof.Proof.TakeDefs
import proofs.«430129_j43860206026957_1_alg».proof.Pre_finite_inputs
import proofs.«430129_j43860206026957_1_alg».proof.Proof.Gen.Pre_finite_inputs
import Idealize.ShloMosaic.Lib.ReduceAll
import Idealize.ShloMosaic.Lib.ValueIdx

noncomputable section

namespace Cert.KernelIdeal.Take

open Idealize.ShloMosaic Cert.KernelIdeal

/-! ## One word -/

/-- The four literals of the chain, read as signed integers. -/
theorem toInt_c0 : (0#32 : BitVec 32).toInt = 0 := by decide
theorem toInt_c49999 : (49999#32 : BitVec 32).toInt = 49999 := by decide
theorem toInt_c50000 : (50000#32 : BitVec 32).toInt = 50000 := by decide
/-- The word 2^32 − 50000 is −50000 read signed. -/
theorem toInt_cneg : (4294917296#32 : BitVec 32).toInt = -50000 := by decide

/-- A word in [−50000, 50000), moved up by 50000 when negative, is in [0, 49999]. In the negative case the sum
    a + 50000 lies in [0, 50000), far inside the signed range, so the 32-bit addition does not wrap. -/
theorem wrap_word (a : BitVec 32) (h : (-50000 : ℤ) ≤ a.toInt ∧ a.toInt < 50000) :
    (0 : ℤ) ≤ (Scalar.select (IntOp.cmpi .slt a 0#32) (IntOp.addi a 50000#32) a).toInt ∧
      (Scalar.select (IntOp.cmpi .slt a 0#32) (IntOp.addi a 50000#32) a).toInt ≤ 49999 := by
  by_cases hn : a.toInt < 0
  · have hc : IntOp.cmpi .slt a 0#32 = 1#1 := IntOp.cmpi_slt.2 (by rw [toInt_c0]; exact hn)
    rw [hc, ValueIdx.select_one]
    have hs : (IntOp.addi a 50000#32).toInt = a.toInt + 50000 := by
      show (a + 50000#32).toInt = _
      rw [BitVec.toInt_add, toInt_c50000]
      exact Int.bmod_eq_of_le_mul_two (by omega) (by omega)
    rw [hs]; omega
  · have hc : IntOp.cmpi .slt a 0#32 = 0#1 :=
      ValueIdx.eq_zero_of_ne_one (fun h1 => hn (by have := IntOp.cmpi_slt.1 h1; rwa [toInt_c0] at this))
    rw [hc, ValueIdx.select_zero]
    omega

/-! ## The in-range bit -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | n :: l => by
    rw [List.foldl_cons, hf n]
    exact foldl_andi_ones f hf l

/-- A reduce by `and` from 1 of an array of 1s is 1 at every result index. -/
theorem reduce_andi_ones {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  rw [Host.reduce_eq_foldl, hi]
  exact foldl_andi_ones x hx _

/-- The wrapped source word of every edge is in [0, 49999]. -/
theorem wrapped_bounds (e : IVec S2x800000 32)
    (h : ∀ i : S800000.Idx, (-50000 : ℤ) ≤ (src e i).toInt ∧ (src e i).toInt < 50000) (k : S800000.Idx) :
    (0 : ℤ) ≤ (wrapped e k).toInt ∧ (wrapped e k).toInt ≤ 49999 :=
  wrap_word (src e k) (h k)

/-- An entry of the index column is the wrapped source word of its row. -/
theorem idxCol_apply (e : IVec S2x800000 32) (i : S800000x1.Idx) : ∃ k : S800000.Idx, idxCol e i = wrapped e k :=
  ⟨_, rfl⟩

/-- Source words in [−50000, 50000) wrap into [0, 49999]: the in-range bit is set on every edge. -/
theorem inRange_eq_ones (e : IVec S2x800000 32)
    (h : ∀ i : S800000.Idx, (-50000 : ℤ) ≤ (src e i).toInt ∧ (src e i).toInt < 50000) : inRange e = fun _ => 1#1 := by
  funext j
  refine reduce_andi_ones _ _ _ _ (fun i => ?_) (fun _ => rfl) j
  -- at an index of the column: the two compares of the wrapped word of that row against the literals 0 and 49999
  obtain ⟨k, hk⟩ := idxCol_apply e i
  obtain ⟨h0, h1⟩ := wrapped_bounds e h k
  show IntOp.andi (IntOp.cmpi .sge (idxCol e i) 0#32) (IntOp.cmpi .sle (idxCol e i) 49999#32) = 1#1
  rw [hk]
  exact IntOp.andi_eq_one.2 ⟨IntOp.cmpi_sge.2 (by rw [toInt_c0]; exact h0), IntOp.cmpi_sle.2 (by rw [toInt_c49999]; exact h1)⟩

/-! ## The select on a bit that is 1 everywhere -/

/-- With the bit set everywhere the fill never fires: the filled take is the gather. -/
theorem take128_eq_gather {F : FTy → Type} [FloatOps F] (x : FVec F S50000x128 .f32) (e : IVec S2x800000 32)
    (h : inRange e = fun _ => 1#1) :
    take128 x e = Host.gather gather_S50000x128_S800000x1_S800000x128_1_0_n_n_0_1_1128 x (idxCol e) := by
  funext j
  unfold take128
  rw [h]
  exact ValueIdx.select_one _ _

theorem take256_eq_gather {F : FTy → Type} [FloatOps F] (x : FVec F S50000x256 .f32) (e : IVec S2x800000 32)
    (h : inRange e = fun _ => 1#1) :
    take256 x e = Host.gather gather_S50000x256_S800000x1_S800000x256_1_0_n_n_0_1_1256 x (idxCol e) := by
  funext j
  unfold take256
  rw [h]
  exact ValueIdx.select_one _ _

/-! ## The precondition, read per edge -/

/-- The precondition's conjunct on the edge array, read per edge. -/
theorem src_bounds_of_pre (x0 : FVec Ideal S50000x128 .f32) (x1 : IVec S2x800000 32) (x2 : FVec Ideal S256x128 .f32)
    (x3 : FVec Ideal S256 .f32) (x4 : FVec Ideal S256x128 .f32) (x5 : FVec Ideal S128x256 .f32) (x6 : FVec Ideal S128 .f32)
    (x7 : FVec Ideal S128x256 .f32)
    (h : Cert.Pre_finite_inputs.fn (F := Ideal) x0 x1 x2 x3 x4 x5 x6 x7 = fun _ => 1#1) :
    ∀ i : S800000.Idx, (-50000 : ℤ) ≤ (src x1 i).toInt ∧ (src x1 i).toInt < 50000 := by
  intro i
  haveI : Subsingleton Cert.Pre_finite_inputs.S_.Idx := ⟨fun a b => funext fun d => d.elim0⟩
  have h0 := congrFun h ValueIdx.ix0
  unfold Cert.Pre_finite_inputs.fn Cert.Pre_finite_inputs.fn_part1 Cert.Pre_finite_inputs.fn_part2 at h0
  -- the last conjunct of the chain of `and`s is the reduce over the 800000 words
  have hall := Host.reduce_andi_all _ _ _ _ _ (IntOp.andi_eq_one.1 h0).2 i
  obtain ⟨hge, hlt⟩ := IntOp.andi_eq_one.1 hall
  have hge' := IntOp.cmpi_sge.1 hge
  have hlt' := IntOp.cmpi_slt.1 hlt
  exact ⟨by rw [← toInt_cneg]; exact hge', by rw [← toInt_c50000]; exact hlt'⟩

end Cert.KernelIdeal.Take

end
-- ==== Proof.Bridge.lean ====
/-
  The reference's two SAGE layers, entry by entry, against the kernel's entry formula.

  At node r and output feature j a layer computes, from the aggregated features mean[r, ·], the node's own features
  feat[r, ·], two weight matrices W_l, W_r (stored [out, in]) and a bias b_l,

      Σ_q mean[r, q] · W_l[j, q]  +  b_l[j]  +  Σ_q feat[r, q] · W_r[j, q].

  The reference transposes each weight matrix and contracts against it, so its product at (r, j) is the sum over q of the
  left operand at (r, q) times the weight at (j, q); it adds the bias to the first product and then the second product:
  (A + b) + B. The kernel's entry adds the two products first and the bias row last: (A + B) + b, with the weights
  transposed and narrowed beforehand and the bias recast as a row. On the extended reals addition is commutative and
  associative with no side condition, so (A + B) + b = (A + b) + B and the two agree at every entry; narrowing is the
  identity there. Layer 1 is then clamped below at 0 on both sides (the reference's clamp compares against the zero word,
  which is the extended real 0); layer 2 takes layer 1's clamped result and its mean aggregation as operands.

  Each step below is stated over explicit coordinates: first where each of the reference's operations reads its operands,
  then each stage at (r, j), then the kernel's entry with its operands read, then the rearrangement.
-/
import proofs.«430129_j43860206026957_1_alg».proof.Proof.Gen.ReferenceIdeal.Read
import proofs.«430129_j43860206026957_1_alg».proof.Proof.Comb

noncomputable section

namespace Cert.ReferenceIdeal.Bridge

open Idealize.ShloMosaic Idealize.ShloMosaic.ValueIdx Cert.ReferenceIdeal
open scoped BigOperators

/-! ## Layer 1: where the reference's operations read -/

theorem lidx_v24 (r : Fin 50000) (j : Fin 256) (q : Fin 128) : Read.lidx_main_v24 (ix2 r j) q = ix2 r q :=
  funext fun a => Fin.ext (by match a with | ⟨0, _⟩ => rfl | ⟨1, _⟩ => rfl)

theorem ridx_v24 (r : Fin 50000) (j : Fin 256) (q : Fin 128) :
    Read.idx_main_v23 (Read.ridx_main_v24 (ix2 r j) q) = ix2 j q :=
  funext fun a => Fin.ext (by match a with | ⟨0, _⟩ => rfl | ⟨1, _⟩ => rfl)

theorem lidx_v29 (r : Fin 50000) (j : Fin 256) (q : Fin 128) : Read.lidx_main_v29 (ix2 r j) q = ix2 r q :=
  funext fun a => Fin.ext (by match a with | ⟨0, _⟩ => rfl | ⟨1, _⟩ => rfl)

theorem ridx_v29 (r : Fin 50000) (j : Fin 256) (q : Fin 128) :
    Read.idx_main_v28 (Read.ridx_main_v29 (ix2 r j) q) = ix2 j q :=
  funext fun a => Fin.ext (by match a with | ⟨0, _⟩ => rfl | ⟨1, _⟩ => rfl)

theorem idx_v26 (r : Fin 50000) (j : Fin 256) : Read.idx_main_v25 (Read.idx_main_v26 (ix2 r j)) = ix1 j :=
  funext fun a => Fin.ext (by match a with | ⟨0, _⟩ => rfl)

/-- The aggregated features against the first weight matrix, at (r, j). -/
theorem v24_entry (x0 : FVec Ideal S50000x128 .f32) (x1 : IVec S2x800000 32) (x2 : FVec Ideal S256x128 .f32)
    (r : Fin 50000) (j : Fin 256) :
    Read.val_main_v24 (F := Ideal) x0 x1 x2 (ix2 r j)
      = ∑ q : Fin 128, Read.val_main_v22 (F := Ideal) x0 x1 (ix2 r q) * x2 (ix2 j q) := by
  rw [Read.val_main_v24_apply]
  refine Finset.sum_congr rfl fun q _ => ?_
  rw [Read.val_main_v23_apply, lidx_v24, ridx_v24]

/-- The node's own features against the second weight matrix, at (r, j). -/
theorem v29_entry (x0 : FVec Ideal S50000x128 .f32) (x4 : FVec Ideal S256x128 .f32) (r : Fin 50000) (j : Fin 256) :
    Read.val_main_v29 (F := Ideal) x0 x4 (ix2 r j) = ∑ q : Fin 128, x0 (ix2 r q) * x4 (ix2 j q) := by
  rw [Read.val_main_v29_apply]
  refine Finset.sum_congr rfl fun q _ => ?_
  rw [Read.val_main_v28_apply, lidx_v29, ridx_v29]

/-- The bias laid over the rows, at (r, j). -/
theorem v26_entry (x3 : FVec Ideal S256 .f32) (r : Fin 50000) (j : Fin 256) :
    Read.val_main_v26 (F := Ideal) x3 (ix2 r j) = x3 (ix1 j) := by
  rw [Read.val_main_v26_apply, Read.val_main_v25_apply, idx_v26]

/-- The clamp's constant is the extended real 0 at every entry. -/
theorem relu_zero (i : S50000x256.Idx) : Read.val_main_call0_v0 (F := Ideal) i = 0 := by
  rw [Read.val_main_call0_v0_apply, Read.val_main_call0_cst_apply]
  exact Ideal.ofBits_zero_f32

/-- Layer 1 before the clamp: the reference adds the bias between the two products. -/
theorem v30_entry (x0 : FVec Ideal S50000x128 .f32) (x1 : IVec S2x800000 32) (x2 : FVec Ideal S256x128 .f32)
    (x3 : FVec Ideal S256 .f32) (x4 : FVec Ideal S256x128 .f32) (r : Fin 50000) (j : Fin 256) :
    Read.val_main_v30 (F := Ideal) x0 x1 x2 x3 x4 (ix2 r j)
      = (∑ q : Fin 128, Read.val_main_v22 (F := Ideal) x0 x1 (ix2 r q) * x2 (ix2 j q) + x3 (ix1 j))
          + ∑ q : Fin 128, x0 (ix2 r q) * x4 (ix2 j q) := by
  rw [Read.val_main_v30_apply, Read.val_main_v27_apply, v24_entry, v26_entry, v29_entry]
  rfl

/-- A [256, 128] weight matrix transposed and narrowed reads, at (q, j), the matrix at (j, q). -/
theorem weight1_apply (w : FVec Ideal S256x128 .f32) (ht : S256x128.Transposes [1, 0] S128x256)
    (hb : FTy.bf16.bits < FTy.f32.bits) (q : Fin 128) (j : Fin 256) :
    (truncf .bf16 (transpose S128x256 [1, 0] w ht) hb : FVec Ideal S128x256 .bf16) (ix2 q j) = w (ix2 j q) :=
  transpose_ix2_apply w ht q j

/-- The kernel's layer-1 entry with its operands read: transposed weights at (q, j) are the weights at (j, q), the bias
    row at (0, j) is the bias at j, and narrowing changes nothing. -/
theorem entry1_read (x0 : FVec Ideal S50000x128 .f32) (x1 : IVec S2x800000 32) (x2 : FVec Ideal S256x128 .f32)
    (x3 : FVec Ideal S256 .f32) (x4 : FVec Ideal S256x128 .f32)
    (ht : S256x128.Transposes [1, 0] S128x256) (hb : FTy.bf16.bits < FTy.f32.bits) (hc : S256.ShapeCasts S1x256)
    (r : Fin 50000) (j : Fin 256) :
    Cert.Sage.entry (Read.val_main_v22 (F := Ideal) x0 x1) x0 (truncf .bf16 (transpose S128x256 [1, 0] x2 ht) hb)
        (truncf .bf16 (transpose S128x256 [1, 0] x4 ht) hb) (shapeCast S1x256 x3 hc) r j
      = (∑ q : Fin 128, Read.val_main_v22 (F := Ideal) x0 x1 (ix2 r q) * x2 (ix2 j q)
          + ∑ q : Fin 128, x0 (ix2 r q) * x4 (ix2 j q)) + x3 (ix1 j) := by
  unfold Cert.Sage.entry
  rw [Finset.sum_congr rfl fun q _ => congrArg (_ * ·) (weight1_apply x2 ht hb q j),
    Finset.sum_congr rfl fun q _ => congrArg (_ * ·) (weight1_apply x4 ht hb q j),
    shapeCast_a_1a_apply x3 hc 0 j]

/-- Layer 1 at node r, feature j: the kernel's entry, clamped, is the reference's h. -/
theorem layer1_entry (x0 : FVec Ideal S50000x128 .f32) (x1 : IVec S2x800000 32) (x2 : FVec Ideal S256x128 .f32)
    (x3 : FVec Ideal S256 .f32) (x4 : FVec Ideal S256x128 .f32)
    (ht : S256x128.Transposes [1, 0] S128x256) (hb : FTy.bf16.bits < FTy.f32.bits) (hc : S256.ShapeCasts S1x256)
    (r : Fin 50000) (j : Fin 256) :
    max (Cert.Sage.entry (Read.val_main_v22 (F := Ideal) x0 x1) x0 (truncf .bf16 (transpose S128x256 [1, 0] x2 ht) hb)
          (truncf .bf16 (transpose S128x256 [1, 0] x4 ht) hb) (shapeCast S1x256 x3 hc) r j) 0
      = Read.val_main_v31 (F := Ideal) x0 x1 x2 x3 x4 (ix2 r j) := by
  rw [Read.val_main_v31_apply, relu_zero, v30_entry, entry1_read, add_right_comm]
  rfl

/-! ## Layer 2: where the reference's operations read -/

theorem lidx_v52 (r : Fin 50000) (j : Fin 128) (q : Fin 256) : Read.lidx_main_v52 (ix2 r j) q = ix2 r q :=
  funext fun a => Fin.ext (by match a with | ⟨0, _⟩ => rfl | ⟨1, _⟩ => rfl)

theorem ridx_v52 (r : Fin 50000) (j : Fin 128) (q : Fin 256) :
    Read.idx_main_v51 (Read.ridx_main_v52 (ix2 r j) q) = ix2 j q :=
  funext fun a => Fin.ext (by match a with | ⟨0, _⟩ => rfl | ⟨1, _⟩ => rfl)

theorem lidx_v57 (r : Fin 50000) (j : Fin 128) (q : Fin 256) : Read.lidx_main_v57 (ix2 r j) q = ix2 r q :=
  funext fun a => Fin.ext (by match a with | ⟨0, _⟩ => rfl | ⟨1, _⟩ => rfl)

theorem ridx_v57 (r : Fin 50000) (j : Fin 128) (q : Fin 256) :
    Read.idx_main_v56 (Read.ridx_main_v57 (ix2 r j) q) = ix2 j q :=
  funext fun a => Fin.ext (by match a with | ⟨0, _⟩ => rfl | ⟨1, _⟩ => rfl)

theorem idx_v54 (r : Fin 50000) (j : Fin 128) : Read.idx_main_v53 (Read.idx_main_v54 (ix2 r j)) = ix1 j :=
  funext fun a => Fin.ext (by match a with | ⟨0, _⟩ => rfl)

/-- The aggregated hidden features against the first weight matrix, at (r, j). -/
theorem v52_entry (x0 : FVec Ideal S50000x128 .f32) (x1 : IVec S2x800000 32) (x2 : FVec Ideal S256x128 .f32)
    (x3 : FVec Ideal S256 .f32) (x4 : FVec Ideal S256x128 .f32) (x5 : FVec Ideal S128x256 .f32)
    (r : Fin 50000) (j : Fin 128) :
    Read.val_main_v52 (F := Ideal) x0 x1 x2 x3 x4 x5 (ix2 r j)
      = ∑ q : Fin 256, Read.val_main_v50 (F := Ideal) x0 x1 x2 x3 x4 (ix2 r q) * x5 (ix2 j q) := by
  rw [Read.val_main_v52_apply]
  refine Finset.sum_congr rfl fun q _ => ?_
  rw [Read.val_main_v51_apply, lidx_v52, ridx_v52]

/-- The node's own hidden features against the second weight matrix, at (r, j). -/
theorem v57_entry (x0 : FVec Ideal S50000x128 .f32) (x1 : IVec S2x800000 32) (x2 : FVec Ideal S256x128 .f32)
    (x3 : FVec Ideal S256 .f32) (x4 : FVec Ideal S256x128 .f32) (x7 : FVec Ideal S128x256 .f32)
    (r : Fin 50000) (j : Fin 128) :
    Read.val_main_v57 (F := Ideal) x0 x1 x2 x3 x4 x7 (ix2 r j)
      = ∑ q : Fin 256, Read.val_main_v31 (F := Ideal) x0 x1 x2 x3 x4 (ix2 r q) * x7 (ix2 j q) := by
  rw [Read.val_main_v57_apply]
  refine Finset.sum_congr rfl fun q _ => ?_
  rw [Read.val_main_v56_apply, lidx_v57, ridx_v57]

/-- The second bias laid over the rows, at (r, j). -/
theorem v54_entry (x6 : FVec Ideal S128 .f32) (r : Fin 50000) (j : Fin 128) :
    Read.val_main_v54 (F := Ideal) x6 (ix2 r j) = x6 (ix1 j) := by
  rw [Read.val_main_v54_apply, Read.val_main_v53_apply, idx_v54]

/-- Layer 2 as the reference computes it: the bias between the two products. -/
theorem v58_entry (x0 : FVec Ideal S50000x128 .f32) (x1 : IVec S2x800000 32) (x2 : FVec Ideal S256x128 .f32)
    (x3 : FVec Ideal S256 .f32) (x4 : FVec Ideal S256x128 .f32) (x5 : FVec Ideal S128x256 .f32)
    (x6 : FVec Ideal S128 .f32) (x7 : FVec Ideal S128x256 .f32) (r : Fin 50000) (j : Fin 128) :
    Read.val_main_v58 (F := Ideal) x0 x1 x2 x3 x4 x5 x6 x7 (ix2 r j)
      = (∑ q : Fin 256, Read.val_main_v50 (F := Ideal) x0 x1 x2 x3 x4 (ix2 r q) * x5 (ix2 j q) + x6 (ix1 j))
          + ∑ q : Fin 256, Read.val_main_v31 (F := Ideal) x0 x1 x2 x3 x4 (ix2 r q) * x7 (ix2 j q) := by
  rw [Read.val_main_v58_apply, Read.val_main_v55_apply, v52_entry, v54_entry, v57_entry]
  rfl

/-- A [128, 256] weight matrix transposed and narrowed reads, at (q, j), the matrix at (j, q). -/
theorem weight2_apply (w : FVec Ideal S128x256 .f32) (ht : S128x256.Transposes [1, 0] S256x128)
    (hb : FTy.bf16.bits < FTy.f32.bits) (q : Fin 256) (j : Fin 128) :
    (truncf .bf16 (transpose S256x128 [1, 0] w ht) hb : FVec Ideal S256x128 .bf16) (ix2 q j) = w (ix2 j q) :=
  transpose_ix2_apply w ht q j

/-- The kernel's layer-2 entry with its operands read. -/
theorem entry2_read (x0 : FVec Ideal S50000x128 .f32) (x1 : IVec S2x800000 32) (x2 : FVec Ideal S256x128 .f32)
    (x3 : FVec Ideal S256 .f32) (x4 : FVec Ideal S256x128 .f32) (x5 : FVec Ideal S128x256 .f32)
    (x6 : FVec Ideal S128 .f32) (x7 : FVec Ideal S128x256 .f32)
    (ht : S128x256.Transposes [1, 0] S256x128) (hb : FTy.bf16.bits < FTy.f32.bits) (hc : S128.ShapeCasts S1x128)
    (r : Fin 50000) (j : Fin 128) :
    Cert.Sage.entry (Read.val_main_v50 (F := Ideal) x0 x1 x2 x3 x4) (Read.val_main_v31 (F := Ideal) x0 x1 x2 x3 x4)
        (truncf .bf16 (transpose S256x128 [1, 0] x5 ht) hb) (truncf .bf16 (transpose S256x128 [1, 0] x7 ht) hb)
        (shapeCast S1x128 x6 hc) r j
      = (∑ q : Fin 256, Read.val_main_v50 (F := Ideal) x0 x1 x2 x3 x4 (ix2 r q) * x5 (ix2 j q)
          + ∑ q : Fin 256, Read.val_main_v31 (F := Ideal) x0 x1 x2 x3 x4 (ix2 r q) * x7 (ix2 j q)) + x6 (ix1 j) := by
  unfold Cert.Sage.entry
  rw [Finset.sum_congr rfl fun q _ => congrArg (_ * ·) (weight2_apply x5 ht hb q j),
    Finset.sum_congr rfl fun q _ => congrArg (_ * ·) (weight2_apply x7 ht hb q j),
    shapeCast_a_1a_apply x6 hc 0 j]

/-- Layer 2 at node r, feature j: the kernel's entry over h and its mean aggregation is the reference's result. -/
theorem layer2_entry (x0 : FVec Ideal S50000x128 .f32) (x1 : IVec S2x800000 32) (x2 : FVec Ideal S256x128 .f32)
    (x3 : FVec Ideal S256 .f32) (x4 : FVec Ideal S256x128 .f32) (x5 : FVec Ideal S128x256 .f32)
    (x6 : FVec Ideal S128 .f32) (x7 : FVec Ideal S128x256 .f32)
    (ht : S128x256.Transposes [1, 0] S256x128) (hb : FTy.bf16.bits < FTy.f32.bits) (hc : S128.ShapeCasts S1x128)
    (r : Fin 50000) (j : Fin 128) :
    Cert.Sage.entry (Read.val_main_v50 (F := Ideal) x0 x1 x2 x3 x4) (Read.val_main_v31 (F := Ideal) x0 x1 x2 x3 x4)
        (truncf .bf16 (transpose S256x128 [1, 0] x5 ht) hb) (truncf .bf16 (transpose S256x128 [1, 0] x7 ht) hb)
        (shapeCast S1x128 x6 hc) r j
      = Read.val_main_v58 (F := Ideal) x0 x1 x2 x3 x4 x5 x6 x7 (ix2 r j) := by
  rw [v58_entry, entry2_read, add_right_comm]

end Cert.ReferenceIdeal.Bridge

end
-- ==== Proof.KernelValue.lean ====
/-
  The kernel's result is the reference's, as a function of the launch arguments.

  After the second call the result buffer holds that call's result array; by the two calls' closed forms and the host
  stretches read back, it is the last layer's formula over h and the mean aggregation of h, with h the first layer's clamped
  formula over x and the mean aggregation of x. Under the precondition on the source indices the kernel's filled take is the
  plain gather, so both mean aggregations are the reference's, and entry by entry each layer is the reference's stage:
  (A + B) + b = (A + b) + B on the extended reals.
-/
import proofs.«430129_j43860206026957_1_alg».proof.Proof.Region0
import proofs.«430129_j43860206026957_1_alg».proof.Proof.Region1
import proofs.«430129_j43860206026957_1_alg».proof.Proof.HostChain
import proofs.«430129_j43860206026957_1_alg».proof.Proof.PreDecode
import proofs.«430129_j43860206026957_1_alg».proof.Proof.Bridge

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-! ## The two mean aggregations, once the fill never fires -/

theorem mean128_eq (x0 : FVec Ideal S50000x128 .f32) (x1 : IVec S2x800000 32) (hm : Take.inRange x1 = fun _ => 1#1) :
    Take.mean128 x0 x1 = Cert.ReferenceIdeal.Read.val_main_v22 (F := Ideal) x0 x1 := by
  unfold Take.mean128
  rw [Take.take128_eq_gather x0 x1 hm]
  rfl

theorem mean256_eq (x0 : FVec Ideal S50000x128 .f32) (x1 : IVec S2x800000 32) (x2 : FVec Ideal S256x128 .f32)
    (x3 : FVec Ideal S256 .f32) (x4 : FVec Ideal S256x128 .f32) (hm : Take.inRange x1 = fun _ => 1#1) :
    Take.mean256 (F := Ideal) (Cert.ReferenceIdeal.Read.val_main_v31 (F := Ideal) x0 x1 x2 x3 x4) x1
      = (Cert.ReferenceIdeal.Read.val_main_v50 (F := Ideal) x0 x1 x2 x3 x4 : FVec Ideal S50000x256 .f32) := by
  unfold Take.mean256
  rw [Take.take256_eq_gather _ x1 hm]
  rfl

/-! ## The two layers over whole arrays -/

theorem layer1_eq (x0 : FVec Ideal S50000x128 .f32) (x1 : IVec S2x800000 32) (x2 : FVec Ideal S256x128 .f32)
    (x3 : FVec Ideal S256 .f32) (x4 : FVec Ideal S256x128 .f32) :
    Region0.layer (Cert.ReferenceIdeal.Read.val_main_v22 (F := Ideal) x0 x1) x0
        (truncf .bf16 (transpose S128x256 [1, 0] x2 Facts₀.transposes_S256x128_S128x256_1_0) bitsLt_bf16_f32)
        (shapeCast S1x256 x3 Facts₀.shapeCasts_S256_S1x256)
        (truncf .bf16 (transpose S128x256 [1, 0] x4 Facts₀.transposes_S256x128_S128x256_1_0) bitsLt_bf16_f32)
      = Cert.ReferenceIdeal.Read.val_main_v31 (F := Ideal) x0 x1 x2 x3 x4 := by
  funext i
  obtain ⟨r, j, rfl⟩ : ∃ (r : Fin 50000) (j : Fin 256), i = ix2 r j := ⟨i 0, i 1, eq_ix2 i⟩
  unfold Region0.layer
  exact Cert.ReferenceIdeal.Bridge.layer1_entry x0 x1 x2 x3 x4 _ _ _ r j

theorem layer2_eq (x0 : FVec Ideal S50000x128 .f32) (x1 : IVec S2x800000 32) (x2 : FVec Ideal S256x128 .f32)
    (x3 : FVec Ideal S256 .f32) (x4 : FVec Ideal S256x128 .f32) (x5 : FVec Ideal S128x256 .f32) (x6 : FVec Ideal S128 .f32)
    (x7 : FVec Ideal S128x256 .f32) :
    Region1.layer (Cert.ReferenceIdeal.Read.val_main_v50 (F := Ideal) x0 x1 x2 x3 x4)
        (Cert.ReferenceIdeal.Read.val_main_v31 (F := Ideal) x0 x1 x2 x3 x4)
        (truncf .bf16 (transpose S256x128 [1, 0] x5 Facts₀.transposes_S128x256_S256x128_1_0) bitsLt_bf16_f32)
        (shapeCast S1x128 x6 Facts₀.shapeCasts_S128_S1x128)
        (truncf .bf16 (transpose S256x128 [1, 0] x7 Facts₀.transposes_S128x256_S256x128_1_0) bitsLt_bf16_f32)
      = Cert.ReferenceIdeal.Read.val_main_v58 (F := Ideal) x0 x1 x2 x3 x4 x5 x6 x7 := by
  funext i
  obtain ⟨r, j, rfl⟩ : ∃ (r : Fin 50000) (j : Fin 128), i = ix2 r j := ⟨i 0, i 1, eq_ix2 i⟩
  unfold Region1.layer
  exact Cert.ReferenceIdeal.Bridge.layer2_entry x0 x1 x2 x3 x4 x5 x6 x7 _ _ _ r j

/-! ## The result buffer -/

variable (m : (ℓ : Loc nD τ sig) → Buf (Elt Ideal) ℓ) (ρ : Dev nD → PrngReg)

/-- The first call's result array, as left at its exit: the reference's h. -/
theorem h_eq (c : Dev nD) (hm : Take.inRange (m ((c : Thread nD τ).loc main_arg1)) = fun _ => 1#1) :
    V4 m ρ c main_v27
      = Cert.ReferenceIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine ((hF0 m ρ c 5).symm.trans (Region0.array_eq (V3 m ρ) c)).trans ?_
  rw [HostChain.entry0_mean, HostChain.entry0_x, HostChain.entry0_wl, HostChain.entry0_bl, HostChain.entry0_wr,
    mean128_eq _ _ hm]
  exact layer1_eq _ _ _ _ _

/-- The result buffer after the run: the reference's result stage of the launch arguments. -/
theorem result_eq (c : Dev nD) (hm : Take.inRange (m ((c : Thread nD τ).loc main_arg1)) = fun _ => 1#1) :
    W7 m ρ c (Proc.devRef .tc main_v41)
      = Cert.ReferenceIdeal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine ((W7_arr m ρ c 5).trans (Region1.array_eq (V6 m ρ) c)).trans ?_
  rw [HostChain.entry1_mean, HostChain.entry1_h, HostChain.entry1_wl, HostChain.entry1_bl, HostChain.entry1_wr,
    h_eq m ρ c hm, mean256_eq _ _ _ _ _ hm]
  exact layer2_eq _ _ _ _ _ _ _ _

end Cert.KernelIdeal.Hand

end
-- ==== Proof.lean ====
/-
  A two-layer GraphSAGE (mean aggregation) against its jnp reference, over the extended reals.

  Both programs aggregate node features over the edges on the host — gather the source rows, sum them per destination
  node, divide by the node's degree (at least one) — and then combine, per layer,

      out[r, j] = Σ_q mean[r, q]·W_l[j, q] + b_l[j] + Σ_q feat[r, q]·W_r[j, q],

  the first layer clamped below at 0. The kernel does the combine in a pallas_call per layer, 25 blocks of 2000 nodes each,
  with the weights transposed beforehand, as (A + B) + b; the reference does it with two contractions as (A + b) + B.
  Addition on the extended reals is commutative and associative, so the two agree entry by entry with no finiteness used.

  One thing differs on the host side: the kernel gathers with `jnp.take`, which replaces a row whose (wrapped) index is out
  of range by a fill word, where the reference's `x[src]` gathers with no such test. The precondition therefore also
  says that every source index s satisfies −50000 ≤ s < 50000 (exactly the indices numpy-style indexing of a 50000-row
  table accepts); under it the fill never fires and the two gathers are one.

  The frames of the two kernel programs are the generated ones; the reference's frame is its generated run with the result
  dropped; `preserves` has no entry. For `algebraic` the kernel's run is the generated launch called again with the result
  buffer read, and that buffer's contents are the reference's result stage of the same arguments.
-/
import proofs.«430129_j43860206026957_1_alg».proof.Defs
import proofs.«430129_j43860206026957_1_alg».proof.Proof.Gen.Kernel
import proofs.«430129_j43860206026957_1_alg».proof.Proof.Gen.Kernel.Frame
import proofs.«430129_j43860206026957_1_alg».proof.Proof.Gen.KernelIdeal
import proofs.«430129_j43860206026957_1_alg».proof.Proof.Gen.KernelIdeal.Frame
import proofs.«430129_j43860206026957_1_alg».proof.Proof.Gen.ReferenceIdeal
import proofs.«430129_j43860206026957_1_alg».proof.Proof.Gen.ReferenceIdeal.Run
import proofs.«430129_j43860206026957_1_alg».proof.Proof.Gen.ReferenceIdeal.Read
import proofs.«430129_j43860206026957_1_alg».proof.Proof.Gen.Pre_finite_inputs
import proofs.«430129_j43860206026957_1_alg».proof.Proof.KernelRun
import proofs.«430129_j43860206026957_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories that agree on the arguments, end with one result: the reference's result
    stage of the arguments. On the kernel's side that is the result buffer read off the run (the in-range bit of every
    source index is set, by the precondition); on the reference's side it is its run's own term. -/
theorem algebraic : Cert.algebraic_KernelIdeal_ReferenceIdeal := by
  intro m ρ m' ρ' hpre hagree
  have hm : ∀ c : Dev Cert.KernelIdeal.nD,
      Cert.KernelIdeal.Take.inRange (m ((c.tc : Thread Cert.KernelIdeal.nD Cert.KernelIdeal.τ).loc Cert.KernelIdeal.main_arg1)) = fun _ => 1#1 :=
    fun c => Cert.KernelIdeal.Take.inRange_eq_ones _ (Cert.KernelIdeal.Take.src_bounds_of_pre _ _ _ _ _ _ _ _ (hpre c))
  refine ⟨fun c => Cert.ReferenceIdeal.Read.val_main_v58 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m ρ c (hm c)), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
